-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S256x128 : Shape := ⟨2, ![256, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S320000x128 .f32) (main_arg1 : FVec F S320000x128 .f32) (main_arg2 : FVec F S256x128 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S320000x128 : Shape := ⟨2, ![320000, 128]⟩
abbrev S256x128 : Shape := ⟨2, ![256, 128]⟩
abbrev S16000x128 : Shape := ⟨2, ![16000, 128]⟩
abbrev S128x128 : Shape := ⟨2, ![128, 128]⟩

abbrev nBuf : Space → Nat
  | .hbm => 4
  | .vmem => 7
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S320000x128, .f32⟩
  | .local _ .vmem, ⟨0, _⟩ => ⟨S16000x128, .f32⟩
  | .local _ .vmem, ⟨1, _⟩ => ⟨S16000x128, .f32⟩
  | .local _ .vmem, ⟨2, _⟩ => ⟨S16000x128, .f32⟩
  | .local _ .vmem, ⟨3, _⟩ => ⟨S16000x128, .f32⟩
  | .local _ .vmem, ⟨4, _⟩ => ⟨S256x128, .f32⟩
  | .local _ .vmem, ⟨5, _⟩ => ⟨S16000x128, .f32⟩
  | .local _ .vmem, ⟨6, _⟩ => ⟨S16000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16000x128_S16000x128_0_0 : ∀ a, (![0, 0] : Fin 2 → Nat) a + S16000x128.size a ≤ S16000x128.size a
  h_S16000x128 : 0 < S16000x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  dot_S16000x128_S128x128_S16000x128_1_0_0_1_n_n_wf : DotDims.WF S16000x128 S128x128 S16000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S320000x128.size a
  hwx0_0 : ∀ i : grid0.Coords, EltTy.bits .f32 = 32 ∨ (Rect.block (s := S320000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S320000x128.size a
  hwx0_1 : ∀ i : grid0.Coords, EltTy.bits .f32 = 32 ∨ (Rect.block (s := S320000x128) S16000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S320000x128.size a
  hwx0_3 : ∀ i : grid0.Coords, EltTy.bits .f32 = 32 ∨ (Rect.block (s := S320000x128) S16000x128.size (cc0_transform_3 i) (hinb0_3 i)).WholeWords (EltTy.packing .f32)

variable [Facts₀]

def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf

abbrev win0_0 : Pipeline.Window sig grid0 :=
  Pipeline.Window.ofSpec (Memref.whole main_arg0) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S320000x128 : Shape := ⟨2, ![320000, 128]⟩
abbrev S256x128 : Shape := ⟨2, ![256, 128]⟩
abbrev S320000x256 : Shape := ⟨2, ![320000, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S320000x256, .f32⟩
  | .hbm, ⟨4, _⟩ => ⟨S320000x128, .f32⟩
  | .hbm, ⟨5, _⟩ => ⟨S_, .f32⟩
  | .hbm, ⟨6, _⟩ => ⟨S320000x128, .f32⟩
  | .hbm, ⟨7, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  concatenates_S320000x128_S320000x128_S320000x256_d1 : Shape.Concatenates [S320000x128, S320000x128] S320000x256 1
  bcast_S_S320000x128 : S_.BroadcastsInDim S320000x128 (![] : Fin 0 → Fin S320000x128.rank)
  dot_S320000x256_S256x128_S320000x128_1_0_0_1_n_n_wf : DotDims.WF S320000x256 S256x128 S320000x128 [1] [0] [0] [1] [] []

variable [Facts₀]

def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.Spec.lean ====
/-
  The function both programs compute, stated once over the extended reals.

  For edge features A, B : [320000, 128] and a weight W : [256, 128], entry (r, q) of the result is
      max (∑ k < 128, A[r, k] · W[k, q]  +  ∑ k < 128, B[r, k] · W[128 + k, q]) 0 :
  the rectified product of the row (A[r, ·] ‖ B[r, ·]) of length 256 with column q of W, the sum over the 256
  contraction positions written as the sum over its first 128 plus the sum over its last 128. Splitting a finite
  sum in two uses only that addition on the extended reals is commutative and associative, so no input needs to be
  finite for it.
-/
import Idealize.ShloMosaic.PureOps.Ideal
import Idealize.ShloMosaic.Lib.ValueIdx
import Mathlib.Algebra.BigOperators.Fin

noncomputable section

namespace Cert.EdgeEncoder

open Idealize.ShloMosaic Idealize.ShloMosaic.ValueIdx

/-- The edge arrays' shape and the weight's. -/
abbrev SEdges : Shape := ⟨2, ![320000, 128]⟩
abbrev SWeight : Shape := ⟨2, ![256, 128]⟩

/-- Row `k` of the weight's top half, and row `k` of its bottom half, as rows of the whole weight. -/
def topRow (k : Fin 128) : Fin 256 := ⟨k.val, by omega⟩
def botRow (k : Fin 128) : Fin 256 := ⟨k.val + 128, by omega⟩

@[simp] theorem topRow_val (k : Fin 128) : (topRow k).val = k.val := rfl
@[simp] theorem botRow_val (k : Fin 128) : (botRow k).val = k.val + 128 := rfl

/-- The encoder: the rectified sum of the two half products. -/
def encode (A B : FVec Ideal SEdges .f32) (W : FVec Ideal SWeight .f32) : FVec Ideal SEdges .f32 := fun i =>
  max ((∑ k : Fin 128, A (ix2 (n0 := 320000) (n1 := 128) (i 0) k) * W (ix2 (n0 := 256) (n1 := 128) (topRow k) (i 1)))
      + ∑ k : Fin 128, B (ix2 (n0 := 320000) (n1 := 128) (i 0) k) * W (ix2 (n0 := 256) (n1 := 128) (botRow k) (i 1))) 0

/-- A sum over the 256 contraction positions is the sum over the first 128 plus the sum over the last 128. -/
theorem sum_halves (f : Fin 256 → EReal) :
    ∑ k : Fin 256, f k = (∑ k : Fin 128, f (topRow k)) + ∑ k : Fin 128, f (botRow k) :=
  (Fin.sum_univ_add (a := 128) (b := 128) f).trans
    (congrArg₂ (· + ·) (Finset.sum_congr rfl fun k _ => congrArg f (Fin.ext rfl))
      (Finset.sum_congr rfl fun k _ => congrArg f (Fin.ext (Nat.add_comm _ _))))

end Cert.EdgeEncoder

end
-- ==== Proof.RefSide.lean ====
/-
  The reference, read index by index.

  The reference joins the two edge arrays along their columns into a [320000, 256] array, multiplies it with the weight
  and rectifies. Entry (r, c) of the joined array is A[r, c] for c < 128 and B[r, c − 128] from there on; so the
  contraction over 256 positions, split into its two halves, is the sum of the product of A's row with the weight's top
  half and of B's row with its bottom half, which is the encoder of the specification.
-/
import proofs.«148783_g72773925864120_cont_sun_m_400_7_alg».proof.Proof.Gen.ReferenceIdeal.Read
import proofs.«148783_g72773925864120_cont_sun_m_400_7_alg».proof.Proof.Spec

noncomputable section

namespace Cert.EdgeEncoder.Ref

open Cert.ReferenceIdeal Cert.ReferenceIdeal.Gen Cert.ReferenceIdeal.Read
open Idealize.ShloMosaic Idealize.ShloMosaic.ValueIdx Cert.EdgeEncoder

/-- The contraction's left index at output entry `i` and position `k` is (row of `i`, `k`). -/
theorem left_index (i : S320000x128.Idx) (k : Fin 256) :
    lidx_main_v1 i k = ix2 (n0 := 320000) (n1 := 256) (i 0) k :=
  funext fun a => Fin.ext (by match a with | ⟨0, _⟩ => rfl | ⟨1, _⟩ => rfl)

/-- Its right index is (`k`, column of `i`). -/
theorem right_index (i : S320000x128.Idx) (k : Fin 256) :
    ridx_main_v1 i k = ix2 (n0 := 256) (n1 := 128) k (i 1) :=
  funext fun a => Fin.ext (by match a with | ⟨0, _⟩ => rfl | ⟨1, _⟩ => rfl)

/-- The joined array at a column of its first half is the first array there. -/
theorem joined_left (x0 x1 : FVec Ideal S320000x128 .f32) (r : Fin 320000) (k : Fin 128) :
    val_main_v0 (F := Ideal) x0 x1 (ix2 (n0 := 320000) (n1 := 256) r (topRow k)) = x0 (ix2 (n0 := 320000) (n1 := 128) r k) := by
  unfold val_main_v0
  exact concatenate_pair_apply_left 1 x0 x1 concatenates_S320000x128_S320000x128_S320000x256_d1 _ rfl _ (fun b => by
    match b with
    | ⟨0, _⟩ => rfl
    | ⟨1, _⟩ => rfl)

/-- The joined array at a column of its second half is the second array, 128 columns back. -/
theorem joined_right (x0 x1 : FVec Ideal S320000x128 .f32) (r : Fin 320000) (k : Fin 128) :
    val_main_v0 (F := Ideal) x0 x1 (ix2 (n0 := 320000) (n1 := 256) r (botRow k)) = x1 (ix2 (n0 := 320000) (n1 := 128) r k) := by
  unfold val_main_v0
  exact concatenate_pair_apply_right 1 x0 x1 concatenates_S320000x128_S320000x128_S320000x256_d1 _ rfl rfl _
    (fun b hb => by
      match b with
      | ⟨0, _⟩ => rfl
      | ⟨1, _⟩ => exact absurd rfl hb)
    rfl

/-- The product of the joined array with the weight, at an entry: the two half products added. -/
theorem product_apply (x0 x1 : FVec Ideal S320000x128 .f32) (x2 : FVec Ideal S256x128 .f32) (i : S320000x128.Idx) :
    val_main_v1 (F := Ideal) x0 x1 x2 i
      = (∑ k : Fin 128, x0 (ix2 (n0 := 320000) (n1 := 128) (i 0) k) * x2 (ix2 (n0 := 256) (n1 := 128) (topRow k) (i 1)))
        + ∑ k : Fin 128, x1 (ix2 (n0 := 320000) (n1 := 128) (i 0) k) * x2 (ix2 (n0 := 256) (n1 := 128) (botRow k) (i 1)) := by
  rw [val_main_v1_apply, sum_halves]
  refine congrArg₂ (· + ·) (Finset.sum_congr rfl fun k _ => ?_) (Finset.sum_congr rfl fun k _ => ?_)
  · beta_reduce
    rw [left_index, right_index, joined_left x0 x1 (i 0) k]
  · beta_reduce
    rw [left_index, right_index, joined_right x0 x1 (i 0) k]

/-- The reference's result is the encoder of its arguments. -/
theorem reference_eq (x0 x1 : FVec Ideal S320000x128 .f32) (x2 : FVec Ideal S256x128 .f32) :
    val_main_v2 (F := Ideal) x0 x1 x2 = encode x0 x1 x2 := by
  funext i
  rw [val_main_v2_apply, product_apply, val_main_call0_v0_apply, val_main_call0_cst_apply]
  show max _ (Ideal.ofBits .f32 0x00000000#32) = _
  rw [Ideal.ofBits_zero_f32]
  rfl

end Cert.EdgeEncoder.Ref

end
-- ==== Proof.BodySide.lean ====
/-
  The kernel body's arithmetic, read index by index.

  At a grid point the body multiplies the block of A rows with the weight's top half, the block of B rows with its
  bottom half (each product accumulated from zero, so each entry is the plain sum over the 128 contraction positions),
  adds the two and rectifies. Entry (p, q) of the stored block is therefore
      max (∑ k < 128, a[p, k] · w₁[k, q]  +  ∑ k < 128, b[p, k] · w₂[k, q]) 0.
-/
import proofs.«148783_g72773925864120_cont_sun_m_400_7_alg».proof.Proof.Gen.KernelIdeal.Skeleton
import proofs.«148783_g72773925864120_cont_sun_m_400_7_alg».proof.Proof.Spec
import Idealize.ShloMosaic.PureOps.Ideal.Laws
import Idealize.ShloMosaic.Lib.ValueIdx

noncomputable section

namespace Cert.EdgeEncoder.Body

open Cert.KernelIdeal Cert.KernelIdeal.Gen
open Idealize.ShloMosaic Idealize.ShloMosaic.ValueIdx Cert.EdgeEncoder

/-- The block product's left operand index at output entry `i`, axis 0: the entry's row. -/
theorem lhs_block_0 (i : S16000x128.Idx) (q : dot_S16000x128_S128x128_S16000x128_1_0_0_1_n_n.contr.Idx) :
    (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
/-- Axis 1: the contraction position. -/
theorem lhs_block_1 (i : S16000x128.Idx) (q : dot_S16000x128_S128x128_S16000x128_1_0_0_1_n_n.contr.Idx) :
    (dot_S16000x128_S128x128_S16000x128_1_0_0_1_n_n.lhsIdx i q 1).val = (q ⟨0, by decide⟩).val :=
  dot_S16000x128_S128x128_S16000x128_1_0_0_1_n_n.lhsIdx_val_of_single rfl i q
/-- The right operand index, axis 0: the contraction position. -/
theorem rhs_block_0 (i : S16000x128.Idx) (q : dot_S16000x128_S128x128_S16000x128_1_0_0_1_n_n.contr.Idx) :
    (dot_S16000x128_S128x128_S16000x128_1_0_0_1_n_n.rhsIdx i q 0).val = (q ⟨0, by decide⟩).val :=
  dot_S16000x128_S128x128_S16000x128_1_0_0_1_n_n.rhsIdx_val_of_single rfl i q
/-- Axis 1: the entry's column. -/
theorem rhs_block_1 (i : S16000x128.Idx) (q : dot_S16000x128_S128x128_S16000x128_1_0_0_1_n_n.contr.Idx) :
    (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl

/-- A block product accumulated from zero, at an entry: the sum over the contraction of row times column. -/
theorem block_product_apply (x : FVec Ideal S16000x128 .f32) (w : FVec Ideal S128x128 .f32) (i : S16000x128.Idx) :
    matmul dot_S16000x128_S128x128_S16000x128_1_0_0_1_n_n none x w (constant S16000x128 .f32 0x00000000#32) i
      = ∑ k : Fin 128, x (ix2 (n0 := 16000) (n1 := 128) (i 0) k) * w (ix2 (n0 := 128) (n1 := 128) k (i 1)) := by
  simp only [matmul]
  rw [Ideal.matmul_constant_zero_apply, ← Equiv.sum_comp (contrEquiv1 dot_S16000x128_S128x128_S16000x128_1_0_0_1_n_n 128 rfl rfl).symm]
  refine Finset.sum_congr rfl fun k _ => ?_
  have hk := contrEquiv1_symm_val dot_S16000x128_S128x128_S16000x128_1_0_0_1_n_n 128 rfl rfl k
  have el : dot_S16000x128_S128x128_S16000x128_1_0_0_1_n_n.lhsIdx i ((contrEquiv1 dot_S16000x128_S128x128_S16000x128_1_0_0_1_n_n 128 rfl rfl).symm k) = ix2 (n0 := 16000) (n1 := 128) (i 0) k := funext fun a => Fin.ext (by
    match a with
    | ⟨0, _⟩ => exact lhs_block_0 _ _
    | ⟨1, _⟩ => exact (lhs_block_1 _ _).trans hk)
  have er : dot_S16000x128_S128x128_S16000x128_1_0_0_1_n_n.rhsIdx i ((contrEquiv1 dot_S16000x128_S128x128_S16000x128_1_0_0_1_n_n 128 rfl rfl).symm k) = ix2 (n0 := 128) (n1 := 128) k (i 1) := funext fun a => Fin.ext (by
    match a with
    | ⟨0, _⟩ => exact (rhs_block_0 _ _).trans hk
    | ⟨1, _⟩ => exact rhs_block_1 _ _)
  rw [el, er]

/-- The stored block at an entry: the two block products added and rectified. -/
theorem payload_apply (a b : FVec Ideal S16000x128 .f32) (w₁ w₂ : FVec Ideal S128x128 .f32) (i : S16000x128.Idx) :
    k0_pay1 (F := Ideal) a w₁ b w₂ i
      = max ((∑ k : Fin 128, a (ix2 (n0 := 16000) (n1 := 128) (i 0) k) * w₁ (ix2 (n0 := 128) (n1 := 128) k (i 1)))
          + ∑ k : Fin 128, b (ix2 (n0 := 16000) (n1 := 128) (i 0) k) * w₂ (ix2 (n0 := 128) (n1 := 128) k (i 1))) 0 := by
  unfold k0_pay1
  show max (matmul dot_S16000x128_S128x128_S16000x128_1_0_0_1_n_n none a w₁ (constant S16000x128 .f32 0x00000000#32) i
      + matmul dot_S16000x128_S128x128_S16000x128_1_0_0_1_n_n none b w₂ (constant S16000x128 .f32 0x00000000#32) i) (Ideal.ofBits .f32 0x00000000#32) = _
  rw [block_product_apply, block_product_apply, Ideal.ofBits_zero_f32]

end Cert.EdgeEncoder.Body

end
-- ==== Proof.Blocks.lean ====
/-
  From the blocks the grid points write to the whole result array.

  Grid point t (of 20) stages rows 16000·t … 16000·t + 15999 of A and of B and the whole weight, and writes back the same
  rows of the result. The weight's top half is its rows 0 … 127 and its bottom half its rows 128 … 255, so the block the
  body stores at point t is the encoder of the specification read at those rows; the 20 blocks tile the 320000 rows, so
  after the run the result array is the encoder of the argument arrays everywhere.
-/
import proofs.«148783_g72773925864120_cont_sun_m_400_7_alg».proof.Proof.Gen.KernelIdeal.Value
import proofs.«148783_g72773925864120_cont_sun_m_400_7_alg».proof.Proof.BodySide
import Idealize.ShloMosaic.Lib.Pipeline.Value

noncomputable section

namespace Cert.EdgeEncoder.Blocks

open Cert.KernelIdeal Cert.KernelIdeal.Gen Cert.KernelIdeal.Value
open Idealize.ShloMosaic Idealize.ShloMosaic.TcCoe Idealize.SL.Sem Idealize.ShloMosaic.ValueIdx Cert.EdgeEncoder
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The weight block read through its first 128 rows is the weight's top half. -/
theorem weight_top (w : Vec Ideal S256x128 .f32) (k q : Fin 128) :
    View.ld (Val := Elt Ideal) (e' := .f32) w r0_1 (ix2 (n0 := 128) (n1 := 128) k q) = w (ix2 (n0 := 256) (n1 := 128) (topRow k) q) := by
  show w (r0_1.idx (ix2 (n0 := 128) (n1 := 128) k q)) = _
  congr 1; funext a; apply Fin.ext
  match a with
  | ⟨0, _⟩ => show 0 + 1 * k.val = k.val; omega
  | ⟨1, _⟩ => show 0 + 1 * q.val = q.val; omega

/-- Read through its rows from 128 on it is the bottom half. -/
theorem weight_bot (w : Vec Ideal S256x128 .f32) (k q : Fin 128) :
    View.ld (Val := Elt Ideal) (e' := .f32) w r0_2 (ix2 (n0 := 128) (n1 := 128) k q) = w (ix2 (n0 := 256) (n1 := 128) (botRow k) q) := by
  show w (r0_2.idx (ix2 (n0 := 128) (n1 := 128) k q)) = _
  congr 1; funext a; apply Fin.ext
  match a with
  | ⟨0, _⟩ => show 128 + 1 * k.val = k.val + 128; omega
  | ⟨1, _⟩ => show 0 + 1 * q.val = q.val; omega

/-- What the body leaves in the output's buffer, at an entry, from the three staged blocks: the encoder's formula over
    the block of A rows, the block of B rows and the whole weight. -/
theorem stored_apply (a b : Vec Ideal S16000x128 .f32) (w : Vec Ideal S256x128 .f32) (p : Fin 16000) (q : Fin 128) :
    out0_3 (F := Ideal) a b w (ix2 (n0 := 16000) (n1 := 128) p q)
      = max ((∑ k : Fin 128, a (ix2 (n0 := 16000) (n1 := 128) p k) * w (ix2 (n0 := 256) (n1 := 128) (topRow k) q))
          + ∑ k : Fin 128, b (ix2 (n0 := 16000) (n1 := 128) p k) * w (ix2 (n0 := 256) (n1 := 128) (botRow k) q)) 0 := by
  unfold out0_3
  rw [View.canon_unit_zero origin_zero]
  simp only [View.ld_unit_zero (S := S16000x128) origin_zero]
  refine (Body.payload_apply a b (View.ld (Val := Elt Ideal) (e' := .f32) w r0_1) (View.ld (Val := Elt Ideal) (e' := .f32) w r0_2) (ix2 (n0 := 16000) (n1 := 128) p q)).trans ?_
  show max ((∑ k : Fin 128, a (ix2 (n0 := 16000) (n1 := 128) p k) * View.ld (Val := Elt Ideal) (e' := .f32) w r0_1 (ix2 (n0 := 128) (n1 := 128) k q))
      + ∑ k : Fin 128, b (ix2 (n0 := 16000) (n1 := 128) p k) * View.ld (Val := Elt Ideal) (e' := .f32) w r0_2 (ix2 (n0 := 128) (n1 := 128) k q)) 0 = _
  refine congrArg₂ max (congrArg₂ (· + ·) (Finset.sum_congr rfl fun k _ => ?_) (Finset.sum_congr rfl fun k _ => ?_)) rfl
  · exact congrArg (a (ix2 (n0 := 16000) (n1 := 128) p k) * ·) (weight_top w k q)
  · exact congrArg (b (ix2 (n0 := 16000) (n1 := 128) p k) * ·) (weight_bot w k q)

/-- The printed index maps, decided over the 20 grid points: the edge windows and the output move down the rows with the
    point, the weight window stays, and no window moves along the columns. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of A staged at point `t`, at entry (p, k), is A at row 16000·t + p, column k. -/
theorem edges_block (c : Dev nD) (t : Fin cfg0.N) (p : Fin 16000) (k : Fin 128) (i : S320000x128.Idx)
    (hi0 : (i 0).val = t.val * 16000 + p.val) (hi1 : (i 1).val = k.val) :
    (iblk m c 0 t : Vec Ideal S16000x128 .f32) (ix2 (n0 := 16000) (n1 := 128) p k)
      = (V m c main_arg0 : S320000x128.Idx → Elt Ideal .f32) i := by
  obtain ⟨e0, e1, -⟩ := index_facts t
  unfold iblk
  rw [View.read_apply]
  show V m c main_arg0 _ = V m c main_arg0 _
  congr 1
  funext a; apply Fin.ext
  match a with
  | ⟨0, _⟩ => show win0_0.index t (0 : Fin 2) * 16000 + 1 * p.val = (i 0).val; rw [e0, hi0]; omega
  | ⟨1, _⟩ => show win0_0.index t (1 : Fin 2) * 128 + 1 * k.val = (i 1).val; rw [e1, hi1]; omega

/-- The block of B staged at point `t` likewise. -/
theorem neighbours_block (c : Dev nD) (t : Fin cfg0.N) (p : Fin 16000) (k : Fin 128) (i : S320000x128.Idx)
    (hi0 : (i 0).val = t.val * 16000 + p.val) (hi1 : (i 1).val = k.val) :
    (iblk m c 1 t : Vec Ideal S16000x128 .f32) (ix2 (n0 := 16000) (n1 := 128) p k)
      = (V m c main_arg1 : S320000x128.Idx → Elt Ideal .f32) i := by
  obtain ⟨-, -, e2, e3, -⟩ := index_facts t
  unfold iblk
  rw [View.read_apply]
  show V m c main_arg1 _ = V m c main_arg1 _
  congr 1
  funext a; apply Fin.ext
  match a with
  | ⟨0, _⟩ => show win0_1.index t (0 : Fin 2) * 16000 + 1 * p.val = (i 0).val; rw [e2, hi0]; omega
  | ⟨1, _⟩ => show win0_1.index t (1 : Fin 2) * 128 + 1 * k.val = (i 1).val; rw [e3, hi1]; omega

/-- The weight's block at every point is the whole weight. -/
theorem weight_block (c : Dev nD) (t : Fin cfg0.N) (r : Fin 256) (q : Fin 128) (i : S256x128.Idx)
    (hi0 : (i 0).val = r.val) (hi1 : (i 1).val = q.val) :
    (iblk m c 2 t : Vec Ideal S256x128 .f32) (ix2 (n0 := 256) (n1 := 128) r q)
      = (V m c main_arg2 : S256x128.Idx → Elt Ideal .f32) i := by
  obtain ⟨-, -, -, -, e4, e5, -⟩ := index_facts t
  unfold iblk
  rw [View.read_apply]
  show V m c main_arg2 _ = V m c main_arg2 _
  congr 1
  funext a; apply Fin.ext
  match a with
  | ⟨0, _⟩ => show win0_2.index t (0 : Fin 2) * 256 + 1 * r.val = (i 0).val; rw [e4, hi0]; omega
  | ⟨1, _⟩ => show win0_2.index t (1 : Fin 2) * 128 + 1 * q.val = (i 1).val; rw [e5, hi1]; omega

/-- What the body stores at point `t`, entry (p, q), is the encoder of the argument arrays at row 16000·t + p, column q. -/
theorem point_apply (c : Dev nD) (t : Fin cfg0.N) (p : Fin 16000) (q : Fin 128) (e : S320000x128.Idx)
    (he0 : (e 0).val = t.val * 16000 + p.val) (he1 : (e 1).val = q.val) :
    out0_3 (F := Ideal) (iblk m c 0 t) (iblk m c 1 t) (iblk m c 2 t) (ix2 (n0 := 16000) (n1 := 128) p q)
      = encode (V m c main_arg0) (V m c main_arg1) (V m c main_arg2) e := by
  refine (stored_apply (iblk m c 0 t) (iblk m c 1 t) (iblk m c 2 t) p q).trans ?_
  unfold encode
  refine congrArg₂ max (congrArg₂ (· + ·) (Finset.sum_congr rfl fun k _ => ?_) (Finset.sum_congr rfl fun k _ => ?_)) rfl
  · exact congrArg₂ (· * ·) (edges_block m c t p k _ he0 rfl) (weight_block m c t (topRow k) q _ rfl he1)
  · exact congrArg₂ (· * ·) (neighbours_block m c t p k _ he0 rfl) (weight_block m c t (botRow k) q _ rfl he1)

/-- What point `t` writes back is block `t` of the encoder of the argument arrays. -/
theorem flushed_eq (c : Dev nD) (t : Fin cfg0.N) :
    (dats m 0 c).flushed 3 t
      = ((cfg0.win 3).blk t).view.read (Elt Ideal) (encode (V m c main_arg0) (V m c main_arg1) (V m c main_arg2)) := by
  rw [Value.flushed3]
  obtain ⟨-, -, -, -, -, -, e6, e7⟩ := index_facts t
  funext j
  obtain ⟨p, q, rfl⟩ : ∃ (p : Fin 16000) (q : Fin 128), j = ix2 (n0 := 16000) (n1 := 128) p q := ⟨j 0, j 1, eq_ix2 j⟩
  rw [View.read_apply]
  show out0_3 (F := Ideal) (iblk m c 0 t) (iblk m c 1 t) (iblk m c 2 t) (ix2 (n0 := 16000) (n1 := 128) p q)
    = encode (V m c main_arg0) (V m c main_arg1) (V m c main_arg2) (((cfg0.win 3).blk t).view.emb (ix2 (n0 := 16000) (n1 := 128) p q))
  refine point_apply m c t p q _ ?_ ?_
  · show win0_3.index t (0 : Fin 2) * 16000 + 1 * p.val = t.val * 16000 + p.val; rw [e6]; omega
  · show win0_3.index t (1 : Fin 2) * 128 + 1 * q.val = q.val; rw [e7]; omega

/-- An entry of the result array lies in point `t`'s block iff, on each axis, it lies in the block's range. -/
theorem mem_block (t : Fin cfg0.N) (i : S320000x128.Idx) :
    i ∈ ((cfg0.win 3).blk t).view.set ↔ ∀ a : Fin 2, win0_3.index t a * S16000x128.size a ≤ (i a).val ∧ (i a).val < win0_3.index t a * S16000x128.size a + S16000x128.size a := by
  show i ∈ ((View.whole main_v0).slice (win0_3.rect t)).set ↔ _
  rw [View.set_slice_whole, Rect.mem_set_unit]
  exact Iff.rfl

/-- Every entry of the result array is in the block of the point that holds its row: point (row / 16000). -/
theorem covered (i : S320000x128.Idx) :
    ∃ t : Fin cfg0.N, (cfg0.win 3).flush t = true ∧ i ∈ ((cfg0.win 3).blk t).view.set := by
  have hi0 : (i 0).val < 320000 := (i 0).isLt
  have hi1 : (i 1).val < 128 := (i 1).isLt
  have ht : (i 0).val / 16000 < cfg0.N := by rw [show cfg0.N = 20 from N_0]; omega
  obtain ⟨-, -, -, -, -, -, e6, e7⟩ := index_facts ⟨(i 0).val / 16000, ht⟩
  refine ⟨⟨(i 0).val / 16000, ht⟩, flush0_3 _, ?_⟩
  rw [mem_block]
  intro a
  match a with
  | ⟨0, _⟩ =>
    show win0_3.index ⟨(i 0).val / 16000, ht⟩ (0 : Fin 2) * 16000 ≤ (i 0).val ∧ (i 0).val < win0_3.index ⟨(i 0).val / 16000, ht⟩ (0 : Fin 2) * 16000 + 16000
    rw [e6]; show (i 0).val / 16000 * 16000 ≤ (i 0).val ∧ (i 0).val < (i 0).val / 16000 * 16000 + 16000; omega
  | ⟨1, _⟩ =>
    show win0_3.index ⟨(i 0).val / 16000, ht⟩ (1 : Fin 2) * 128 ≤ (i 1).val ∧ (i 1).val < win0_3.index ⟨(i 0).val / 16000, ht⟩ (1 : Fin 2) * 128 + 128
    rw [e7]; omega

/-- After the run the result array is the encoder of the argument arrays as the region found them. -/
theorem final (c : Dev nD) :
    (dats m 0 c).arrAt 3 cfg0.N = encode (V m c main_arg0) (V m c main_arg1) (V m c main_arg2) :=
  (dats m 0 c).arrAt_eq_of_cover 3 (encode (V m c main_arg0) (V m c main_arg1) (V m c main_arg2))
    (fun t _ => flushed_eq m c t) (covered)

/-- The kernel's run: every weakly fair execution ends with the result array at the encoder of the arguments as
    launched, and the arguments unchanged. -/
theorem run : θ_run defs (onTc (τ := τ) (main (F := Ideal))) ⟨m, fun _ => 0, ρ⟩ fun r => ∀ c : Dev nD,
      r.2.mem ((c : Thread nD τ).loc main_v0)
        = encode (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.EdgeEncoder.Blocks

end
-- ==== Proof.lean ====
/-
  The edge encoder: relu(concat([A, B], axis = 1) · W) for A, B : f32[320000, 128] and W : f32[256, 128].

  The reference joins A and B along their columns and multiplies the joined [320000, 256] array with W. The kernel never
  forms the joined array: over 20 blocks of 16000 rows it computes A·W₁ + B·W₂ with W₁ the first 128 rows of W and W₂ the
  last 128, and rectifies. Over the extended reals both are, at entry (r, q),
      max (∑ k < 128, A[r, k] · W[k, q]  +  ∑ k < 128, B[r, k] · W[128 + k, q]) 0 :
  the reference's contraction over 256 positions is the sum over its first 128 positions, where the joined row holds
  A's, plus the sum over its last 128, where it holds B's. Splitting a finite sum needs only that addition is commutative
  and associative, which it is on the extended reals, so the precondition is not used for the value.

  Spec.lean states that function and the splitting of the sum; RefSide.lean reads the reference's operations index by
  index and arrives at it; BodySide.lean reads the kernel body's arithmetic at an entry of a block; Blocks.lean places
  the 20 blocks in the result array. The kernel's frames are the generated ones, the reference's frame is its run with
  the result dropped, and the idealization rewrote nothing, so what it preserves is trivially so.
-/
import proofs.«148783_g72773925864120_cont_sun_m_400_7_alg».proof.Defs
import proofs.«148783_g72773925864120_cont_sun_m_400_7_alg».proof.Proof.Gen.Kernel
import proofs.«148783_g72773925864120_cont_sun_m_400_7_alg».proof.Proof.Gen.Kernel.Skeleton
import proofs.«148783_g72773925864120_cont_sun_m_400_7_alg».proof.Proof.Gen.Kernel.Launch
import proofs.«148783_g72773925864120_cont_sun_m_400_7_alg».proof.Proof.Gen.Kernel.Points
import proofs.«148783_g72773925864120_cont_sun_m_400_7_alg».proof.Proof.Gen.Kernel.Frame
import proofs.«148783_g72773925864120_cont_sun_m_400_7_alg».proof.Proof.Gen.KernelIdeal
import proofs.«148783_g72773925864120_cont_sun_m_400_7_alg».proof.Proof.Gen.KernelIdeal.Skeleton
import proofs.«148783_g72773925864120_cont_sun_m_400_7_alg».proof.Proof.Gen.KernelIdeal.Launch
import proofs.«148783_g72773925864120_cont_sun_m_400_7_alg».proof.Proof.Gen.KernelIdeal.Points
import proofs.«148783_g72773925864120_cont_sun_m_400_7_alg».proof.Proof.Gen.KernelIdeal.Frame
import proofs.«148783_g72773925864120_cont_sun_m_400_7_alg».proof.Proof.Gen.ReferenceIdeal
import proofs.«148783_g72773925864120_cont_sun_m_400_7_alg».proof.Proof.Gen.Pre_finite_inputs
import proofs.«148783_g72773925864120_cont_sun_m_400_7_alg».proof.Proof.Gen.KernelIdeal.Value
import proofs.«148783_g72773925864120_cont_sun_m_400_7_alg».proof.Proof.Gen.ReferenceIdeal.Run
import proofs.«148783_g72773925864120_cont_sun_m_400_7_alg».proof.Proof.Gen.ReferenceIdeal.Read
import proofs.«148783_g72773925864120_cont_sun_m_400_7_alg».proof.Proof.Spec
import proofs.«148783_g72773925864120_cont_sun_m_400_7_alg».proof.Proof.RefSide
import proofs.«148783_g72773925864120_cont_sun_m_400_7_alg».proof.Proof.BodySide
import proofs.«148783_g72773925864120_cont_sun_m_400_7_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on A, B and W, the kernel's result array and the reference's both end at the encoder of
    those arguments. -/
theorem algebraic : Cert.algebraic_KernelIdeal_ReferenceIdeal := by
  intro m ρ m' ρ' _ hagree
  refine ⟨_, Cert.EdgeEncoder.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.EdgeEncoder.Ref.reference_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
